-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024x30 : Shape := ⟨3, ![1024, 1024, 30]⟩
abbrev S_ : Shape := ⟨0, ![]⟩

class Facts : Prop where
  bcast_S_S1024x1024x30 : S_.BroadcastsInDim S1024x1024x30 (![] : Fin 0 → Fin S1024x1024x30.rank)
  reducesTo_S1024x1024x30_S_d0_1_2 : S1024x1024x30.ReducesTo [0, 1, 2] S_
  h_S_ : 0 < S_.numel

variable [Facts]

def fn {F : FTy → Type} [FloatOps F] (main_arg0 : FVec F S1024x1024x30 .f32) (main_arg1 : FVec F S1024x1024x30 .f32) : IVec S_ 1 :=
  let main_v0 : FVec F S1024x1024x30 .f32 := Host.absf main_arg0
  let main_cst : FVec F S_ .f32 := constant S_ .f32 0x7F800000#32
  let main_v1 : FVec F S1024x1024x30 .f32 := broadcastInDim S1024x1024x30 ![] bcast_S_S1024x1024x30 main_cst
  let main_v2 : IVec S1024x1024x30 1 := cmpf .olt main_v0 main_v1
  let main_c : IVec S_ 1 := constantI S_ 1 1#1
  let main_v3 : IVec S_ 1 := (fun x v => Host.reduce IntOp.andi x v reducesTo_S1024x1024x30_S_d0_1_2 h_S_) main_v2 main_c
  let main_v4 : FVec F S1024x1024x30 .f32 := Host.absf main_arg1
  let main_cst_0 : FVec F S_ .f32 := constant S_ .f32 0x7F800000#32
  let main_v5 : FVec F S1024x1024x30 .f32 := broadcastInDim S1024x1024x30 ![] bcast_S_S1024x1024x30 main_cst_0
  let main_v6 : IVec S1024x1024x30 1 := cmpf .olt main_v4 main_v5
  let main_c_1 : IVec S_ 1 := constantI S_ 1 1#1
  let main_v7 : IVec S_ 1 := (fun x v => Host.reduce IntOp.andi x v reducesTo_S1024x1024x30_S_d0_1_2 h_S_) main_v6 main_c_1
  let main_v8 : IVec S_ 1 := andi main_v3 main_v7
  main_v8
-- ==== Kernel.lean ====
abbrev S1024x1024x30 : Shape := ⟨3, ![1024, 1024, 30]⟩
abbrev S1x1 : Shape := ⟨2, ![1, 1]⟩
abbrev S16x1024x30 : Shape := ⟨3, ![16, 1024, 30]⟩
abbrev S16x1024 : Shape := ⟨2, ![16, 1024]⟩
abbrev S16x1024x1 : Shape := ⟨3, ![16, 1024, 1]⟩
abbrev S16 : Shape := ⟨1, ![16]⟩
abbrev S16x1 : Shape := ⟨2, ![16, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024x30, .f32⟩
  | .hbm, ⟨1, _⟩ => ⟨S1024x1024x30, .f32⟩
  | .hbm, ⟨2, _⟩ => ⟨S1x1, .f32⟩
  | .hbm, ⟨3, _⟩ => ⟨S_, .f32⟩
  | .local _ .vmem, ⟨0, _⟩ => ⟨S16x1024x30, .f32⟩
  | .local _ .vmem, ⟨1, _⟩ => ⟨S16x1024x30, .f32⟩
  | .local _ .vmem, ⟨2, _⟩ => ⟨S16x1024x30, .f32⟩
  | .local _ .vmem, ⟨3, _⟩ => ⟨S16x1024x30, .f32⟩
  | .local _ .vmem, ⟨4, _⟩ => ⟨S1x1, .f32⟩
  | .local _ .vmem, ⟨5, _⟩ => ⟨S1x1, .f32⟩
  | _, _ => ⟨S1024x1024x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v284 : BitVec 1 := Scalar.cmpi .eq arg0 c63_i32
  let v285 : BitVec 32 := Scalar.extui v284
  let c0_i32_23 : BitVec 32 := 0#32
  let v286 : BitVec 1 := Scalar.cmpi .ne v285 c0_i32_23
  v286

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1024x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x1024x30_S16x1024x30_0_0_0 : ∀ a, (![0, 0, 0] : Fin 3 → Nat) a + S16x1024x30.size a ≤ S16x1024x30.size a
  h_S16x1024x30 : 0 < S16x1024x30.numel
  slices_S16x1024x30_o0_0_0_S16x1024x1 : S16x1024x30.Slices ![0, 0, 0] S16x1024x1
  shapeCasts_S16x1024x1_S16x1024 : S16x1024x1.ShapeCasts S16x1024
  slices_S16x1024x30_o0_0_1_S16x1024x1 : S16x1024x30.Slices ![0, 0, 1] S16x1024x1
  slices_S16x1024x30_o0_0_2_S16x1024x1 : S16x1024x30.Slices ![0, 0, 2] S16x1024x1
  slices_S16x1024x30_o0_0_3_S16x1024x1 : S16x1024x30.Slices ![0, 0, 3] S16x1024x1
  slices_S16x1024x30_o0_0_4_S16x1024x1 : S16x1024x30.Slices ![0, 0, 4] S16x1024x1
  slices_S16x1024x30_o0_0_5_S16x1024x1 : S16x1024x30.Slices ![0, 0, 5] S16x1024x1
  slices_S16x1024x30_o0_0_6_S16x1024x1 : S16x1024x30.Slices ![0, 0, 6] S16x1024x1
  slices_S16x1024x30_o0_0_7_S16x1024x1 : S16x1024x30.Slices ![0, 0, 7] S16x1024x1
  slices_S16x1024x30_o0_0_8_S16x1024x1 : S16x1024x30.Slices ![0, 0, 8] S16x1024x1
  slices_S16x1024x30_o0_0_9_S16x1024x1 : S16x1024x30.Slices ![0, 0, 9] S16x1024x1
  slices_S16x1024x30_o0_0_10_S16x1024x1 : S16x1024x30.Slices ![0, 0, 10] S16x1024x1
  slices_S16x1024x30_o0_0_11_S16x1024x1 : S16x1024x30.Slices ![0, 0, 11] S16x1024x1
  slices_S16x1024x30_o0_0_12_S16x1024x1 : S16x1024x30.Slices ![0, 0, 12] S16x1024x1
  slices_S16x1024x30_o0_0_13_S16x1024x1 : S16x1024x30.Slices ![0, 0, 13] S16x1024x1
  slices_S16x1024x30_o0_0_14_S16x1024x1 : S16x1024x30.Slices ![0, 0, 14] S16x1024x1
  slices_S16x1024x30_o0_0_15_S16x1024x1 : S16x1024x30.Slices ![0, 0, 15] S16x1024x1
  slices_S16x1024x30_o0_0_16_S16x1024x1 : S16x1024x30.Slices ![0, 0, 16] S16x1024x1
  slices_S16x1024x30_o0_0_17_S16x1024x1 : S16x1024x30.Slices ![0, 0, 17] S16x1024x1
  slices_S16x1024x30_o0_0_18_S16x1024x1 : S16x1024x30.Slices ![0, 0, 18] S16x1024x1
  slices_S16x1024x30_o0_0_19_S16x1024x1 : S16x1024x30.Slices ![0, 0, 19] S16x1024x1
  slices_S16x1024x30_o0_0_20_S16x1024x1 : S16x1024x30.Slices ![0, 0, 20] S16x1024x1
  slices_S16x1024x30_o0_0_21_S16x1024x1 : S16x1024x30.Slices ![0, 0, 21] S16x1024x1
  slices_S16x1024x30_o0_0_22_S16x1024x1 : S16x1024x30.Slices ![0, 0, 22] S16x1024x1
  slices_S16x1024x30_o0_0_23_S16x1024x1 : S16x1024x30.Slices ![0, 0, 23] S16x1024x1
  slices_S16x1024x30_o0_0_24_S16x1024x1 : S16x1024x30.Slices ![0, 0, 24] S16x1024x1
  slices_S16x1024x30_o0_0_25_S16x1024x1 : S16x1024x30.Slices ![0, 0, 25] S16x1024x1
  slices_S16x1024x30_o0_0_26_S16x1024x1 : S16x1024x30.Slices ![0, 0, 26] S16x1024x1
  slices_S16x1024x30_o0_0_27_S16x1024x1 : S16x1024x30.Slices ![0, 0, 27] S16x1024x1
  slices_S16x1024x30_o0_0_28_S16x1024x1 : S16x1024x30.Slices ![0, 0, 28] S16x1024x1
  slices_S16x1024x30_o0_0_29_S16x1024x1 : S16x1024x30.Slices ![0, 0, 29] S16x1024x1
  reduces_S16x1024_S16 : S16x1024.Reduces [1] S16
  shapeCasts_S16_S16x1 : S16.ShapeCasts S16x1
  reduces_S16x1_S1 : S16x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024x30.size a ≤ S1024x1024x30.size a
  hwx0_0 : ∀ i : grid0.Coords, EltTy.bits .f32 = 32 ∨ (Rect.block (s := S1024x1024x30) S16x1024x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024x30.size a ≤ S1024x1024x30.size a
  hwx0_1 : ∀ i : grid0.Coords, EltTy.bits .f32 = 32 ∨ (Rect.block (s := S1024x1024x30) S16x1024x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S16x1024x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x1024x30 : Shape := ⟨3, ![1024, 1024, 30]⟩
abbrev S1024x1024x20 : Shape := ⟨3, ![1024, 1024, 20]⟩
abbrev S_ : Shape := ⟨0, ![]⟩
abbrev S1024x1024 : Shape := ⟨2, ![1024, 1024]⟩
abbrev S1024x1024x10 : Shape := ⟨3, ![1024, 1024, 10]⟩
abbrev S1024x1024x1 : Shape := ⟨3, ![1024, 1024, 1]⟩

abbrev nBuf : Space → Nat
  | .hbm => 84
  | .vmem => 0
  | .smem => 0
  | _ => 0

abbrev bufTy : (tb : Table) → Fin (tcTables nBuf tb) → BufTy
  | .hbm, ⟨0, _⟩ => ⟨S1024x1024x30, .f32⟩
  | .hbm, ⟨1, _⟩ => ⟨S1024x1024x30, .f32⟩
  | .hbm, ⟨2, _⟩ => ⟨S1024x1024x20, .f32⟩
  | .hbm, ⟨3, _⟩ => ⟨S1024x1024x20, .f32⟩
  | .hbm, ⟨4, _⟩ => ⟨S1024x1024x20, .f32⟩
  | .hbm, ⟨5, _⟩ => ⟨S1024x1024x20, .f32⟩
  | .hbm, ⟨6, _⟩ => ⟨S_, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024x10, .f32⟩
  | .hbm, ⟨12, _⟩ => ⟨S1024x1024x10, .f32⟩
  | .hbm, ⟨13, _⟩ => ⟨S1024x1024x10, .f32⟩
  | .hbm, ⟨14, _⟩ => ⟨S1024x1024x10, .f32⟩
  | .hbm, ⟨15, _⟩ => ⟨S_, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024x1, .f32⟩
  | .hbm, ⟨22, _⟩ => ⟨S1024x1024, .f32⟩
  | .hbm, ⟨23, _⟩ => ⟨S1024x1024x1, .f32⟩
  | .hbm, ⟨24, _⟩ => ⟨S1024x1024, .f32⟩
  | .hbm, ⟨25, _⟩ => ⟨S1024x1024x1, .f32⟩
  | .hbm, ⟨26, _⟩ => ⟨S1024x1024, .f32⟩
  | .hbm, ⟨27, _⟩ => ⟨S1024x1024x1, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024x1, .f32⟩
  | .hbm, ⟨47, _⟩ => ⟨S1024x1024, .f32⟩
  | .hbm, ⟨48, _⟩ => ⟨S1024x1024x1, .f32⟩
  | .hbm, ⟨49, _⟩ => ⟨S1024x1024, .f32⟩
  | .hbm, ⟨50, _⟩ => ⟨S1024x1024x1, .f32⟩
  | .hbm, ⟨51, _⟩ => ⟨S1024x1024, .f32⟩
  | .hbm, ⟨52, _⟩ => ⟨S1024x1024x1, .f32⟩
  | .hbm, ⟨53, _⟩ => ⟨S1024x1024, .f32⟩
  | .hbm, ⟨54, _⟩ => ⟨S_, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S_, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S_, .f32⟩
  | .hbm, ⟨63, _⟩ => ⟨S1024x1024, .f32⟩
  | .hbm, ⟨64, _⟩ => ⟨S1024x1024, .f32⟩
  | .hbm, ⟨65, _⟩ => ⟨S1024x1024, .f32⟩
  | .hbm, ⟨66, _⟩ => ⟨S_, .f32⟩
  | .hbm, ⟨67, _⟩ => ⟨S1024x1024, .f32⟩
  | .hbm, ⟨68, _⟩ => ⟨S1024x1024, .f32⟩
  | .hbm, ⟨69, _⟩ => ⟨S1024x1024, .f32⟩
  | .hbm, ⟨70, _⟩ => ⟨S1024x1024, .f32⟩
  | .hbm, ⟨71, _⟩ => ⟨S1024x1024, .f32⟩
  | .hbm, ⟨72, _⟩ => ⟨S1024x1024, .f32⟩
  | .hbm, ⟨73, _⟩ => ⟨S1024x1024, .f32⟩
  | .hbm, ⟨74, _⟩ => ⟨S1024x1024, .f32⟩
  | .hbm, ⟨75, _⟩ => ⟨S1024x1024, .f32⟩
  | .hbm, ⟨76, _⟩ => ⟨S1024x1024, .f32⟩
  | .hbm, ⟨77, _⟩ => ⟨S1024x1024, .f32⟩
  | .hbm, ⟨78, _⟩ => ⟨S1024x1024, .f32⟩
  | .hbm, ⟨79, _⟩ => ⟨S1024x1024, .f32⟩
  | .hbm, ⟨80, _⟩ => ⟨S1024x1024, .f32⟩
  | .hbm, ⟨81, _⟩ => ⟨S1024x1024, .f32⟩
  | .hbm, ⟨82, _⟩ => ⟨S_, .f32⟩
  | .hbm, ⟨83, _⟩ => ⟨S_, .f32⟩
  | _, _ => ⟨S1024x1024x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_7 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_9 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_10 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_11 : Ref sig .tc := ⟨.hbm, 82, rfl⟩
abbrev main_v68 : Ref sig .tc := ⟨.hbm, 83, rfl⟩

abbrev nD : Nat := 1
abbrev τ : Topo := Topo.v7x

variable {F : FTy → Type} [FloatOps F]

class Facts₀ : Prop where
  slices_S1024x1024x30_S1024x1024x20_0_0_0 : S1024x1024x30.Slices ![0, 0, 0] S1024x1024x20
  reducesTo_S1024x1024x20_S1024x1024_d2 : S1024x1024x20.ReducesTo [2] S1024x1024
  h_S_ : 0 < S_.numel
  bcast_S_S1024x1024 : S_.BroadcastsInDim S1024x1024 (![] : Fin 0 → Fin S1024x1024.rank)
  slices_S1024x1024x30_S1024x1024x10_0_0_20 : S1024x1024x30.Slices ![0, 0, 20] S1024x1024x10
  reducesTo_S1024x1024x10_S1024x1024_d2 : S1024x1024x10.ReducesTo [2] S1024x1024
  slices_S1024x1024x30_S1024x1024x1_0_0_20 : S1024x1024x30.Slices ![0, 0, 20] S1024x1024x1
  shapeCasts_S1024x1024x1_S1024x1024 : S1024x1024x1.ShapeCasts S1024x1024
  slices_S1024x1024x30_S1024x1024x1_0_0_21 : S1024x1024x30.Slices ![0, 0, 21] S1024x1024x1
  slices_S1024x1024x30_S1024x1024x1_0_0_22 : S1024x1024x30.Slices ![0, 0, 22] S1024x1024x1
  slices_S1024x1024x30_S1024x1024x1_0_0_23 : S1024x1024x30.Slices ![0, 0, 23] S1024x1024x1
  reducesTo_S1024x1024_S_d0_1 : S1024x1024.ReducesTo [0, 1] S_

variable [Facts₀]

class Facts : Prop extends Facts₀ where

variable [Facts]
-- ==== Proof.Pieces.lean ====
/-
  What one grid point leaves in the carried accumulator and, at the last point, in the output's buffer, as values.
  The body stores once into the accumulator: the accumulator as it found it plus the sum of the block's per-cell
  losses (at the first point it first stores a zero there, and finds that). At the last point it then copies the
  accumulator into the output's one-element block. So in every case the accumulator ends at
  `update (rowSums yp yt) acc`, with `acc` what the point before left (the zero at the first point), and at the last
  point the output's buffer ends at the same value.
-/
import proofs.«129722_j71219147702889_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The sixteen row sums of a block's per-cell losses, as the body computes them from the prediction block `yp` and the
    target block `yt`: the body's arithmetic, in the pieces the printed program is cut into. -/
abbrev rowSums (yp yt : Vec F S16x1024x30 .f32) : FVec F S16x1 .f32 :=
  k0_pay15 yp yt (k0_pay7 yp yt (k0_pay5 yp yt (k0_pay3 yp yt) (k0_pay4 yt)) (k0_pay6 yp yt))
    (k0_pay11 yp yt (k0_pay8 yp yt) (k0_pay9 yt) (k0_pay10 yp)) (k0_pay12 yp) (k0_pay13 yp) (k0_pay14 yp)

/-- The accumulator after the body's one update: what it held plus the sum of the row sums. -/
abbrev update (rows : FVec F S16x1 .f32) (acc : Vec F S1x1 .f32) : FVec F S1x1 .f32 := k0_pay1 rows acc

/-- A point that is neither first nor last: the accumulator is updated once. -/
theorem acc_B (c : Dev nD) (i : grid0.Coords) (arg1 : Memref sig .tc .vmem S16x1024x30 .f32) (harg1 : arg1.IsWhole) (arg2 : Memref sig .tc .vmem S16x1024x30 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 x1 : Vec F S16x1024x30 .f32) (xs0 : Vec F S1x1 .f32) :
    sout0_B_0 c i arg1 harg1 arg2 harg2 arg3 harg3 arg4 harg4 hc0 hc1 x0 x1 xs0 = update (rowSums x0 x1) xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz2]
  simp only [View.readAt_eq_ld, harg1.read_unread, harg2.read_unread, harg4.read_unread,
    View.ld_unit_zero (S := S16x1024x30) hz3, View.ld_unit_zero (S := S1x1) hz2]

/-- The last point: the accumulator is updated once, -/
theorem acc_C (c : Dev nD) (i : grid0.Coords) (arg1 : Memref sig .tc .vmem S16x1024x30 .f32) (harg1 : arg1.IsWhole) (arg2 : Memref sig .tc .vmem S16x1024x30 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 x1 : Vec F S16x1024x30 .f32) (xs0 : Vec F S1x1 .f32) :
    sout0_C_0 c i arg1 harg1 arg2 harg2 arg3 harg3 arg4 harg4 hc0 hc1 x0 x1 xs0 = update (rowSums x0 x1) xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz2]
  simp only [View.readAt_eq_ld, harg1.read_unread, harg2.read_unread, harg4.read_unread,
    View.ld_unit_zero (S := S16x1024x30) hz3, View.ld_unit_zero (S := S1x1) hz2]

/-- and the output's buffer receives the accumulator as just updated. -/
theorem out_C (c : Dev nD) (i : grid0.Coords) (arg1 : Memref sig .tc .vmem S16x1024x30 .f32) (harg1 : arg1.IsWhole) (arg2 : Memref sig .tc .vmem S16x1024x30 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 x1 : Vec F S16x1024x30 .f32) (xs0 : Vec F S1x1 .f32) :
    out0_C_2 c i arg1 harg1 arg2 harg2 arg3 harg3 arg4 harg4 hc0 hc1 x0 x1 xs0 = update (rowSums x0 x1) xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz2]
  simp only [View.readAt_eq_ld, harg1.read_unread, harg2.read_unread, harg4.read_unread,
    View.ld_unit_zero (S := S16x1024x30) hz3, View.ld_unit_zero (S := S1x1) hz2, View.readCov_unit_zero (S := S1x1) _ hz2]

/-- The first point: the accumulator is first set to zero, then updated from that zero. -/
theorem acc_A (c : Dev nD) (i : grid0.Coords) (arg1 : Memref sig .tc .vmem S16x1024x30 .f32) (harg1 : arg1.IsWhole) (arg2 : Memref sig .tc .vmem S16x1024x30 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 x1 : Vec F S16x1024x30 .f32) :
    sout0_A_0 c i arg1 harg1 arg2 harg2 arg3 harg3 arg4 harg4 hc0 hc1 x0 x1 = update (rowSums x0 x1) (k0_pay2 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg4.read_unread,
    View.ld_unit_zero (S := S16x1024x30) hz3, View.ld_unit_zero (S := S1x1) hz2]

end Cert.KernelIdeal.Loss

end
-- ==== Proof.Cell.lean ====
/-
  The per-cell loss as ONE function of a cell's thirty channels of the prediction `p` and of the target `q`, over the
  extended reals: 3/2 times the squared differences of channels 0..19, plus 5 times those of channels 20..29, plus the
  quotient inter / (areaP + areaQ - inter) of the two boxes (centre, width, height at channels 20..23) with the corner
  conventions both programs share. Both programs compute it cell by cell with the same operations on the same words; they
  differ only in how they ADD: the kernel adds the squared differences one after the other onto a zero, the reference
  sums them; the kernel sums a block's cells row by row and carries the block sums across the grid, the reference sums
  all cells at once. Addition of extended reals is commutative and associative, so no finiteness is needed anywhere.
-/
import Idealize.ShloMosaic.PureOps.Ideal
import Idealize.ShloMosaic.PureOps.Ideal.Laws
import Idealize.ShloMosaic.Lib.ValueIdx
import Mathlib.Algebra.BigOperators.Fin

noncomputable section

open scoped BigOperators
open Idealize.ShloMosaic

namespace Cert.Loss

/-- The weight 3/2 of the class term, the weight 5 of the box term and the factor 1/2 of a half-width, as the words both
    programs print (never evaluated: the same word stands on both sides). -/
abbrev wCls : EReal := Ideal.ofBits .f32 0x3FC00000#32
abbrev wBox : EReal := Ideal.ofBits .f32 0x40A00000#32
abbrev half : EReal := Ideal.ofBits .f32 0x3F000000#32

/-- Channel `k` as an index below thirty. -/
abbrev ch (k : ℕ) (h : k < 30 := by norm_num) : Fin 30 := ⟨k, h⟩

/-- The squared difference target minus prediction on channel `k`. -/
def sqd (p q : Fin 30 → EReal) (k : Fin 30) : EReal := (q k - p k) * (q k - p k)

/-- The signed overlap of the two boxes: (right − left) · (top − bottom) with left/right the larger of the two left/right
    edges and top/bottom the smaller of the two lower/upper edges, as both programs take them. -/
def inter (p q : Fin 30 → EReal) : EReal :=
  (max (q (ch 20) + q (ch 22) * half) (p (ch 20) + p (ch 22) * half)
      - max (q (ch 20) - q (ch 22) * half) (p (ch 20) - p (ch 22) * half))
    * (min (q (ch 21) - q (ch 23) * half) (p (ch 21) - p (ch 23) * half)
      - min (q (ch 21) + q (ch 23) * half) (p (ch 21) + p (ch 23) * half))

/-- The overlap over the union, the union being the two areas minus the overlap. -/
def iou (p q : Fin 30 → EReal) : EReal :=
  Ideal.div (inter p q) (p (ch 22) * p (ch 23) + q (ch 22) * q (ch 23) - inter p q)

/-- One cell's loss. -/
def cell (p q : Fin 30 → EReal) : EReal :=
  wCls * (∑ k : Fin 20, sqd p q (Fin.castLE (by norm_num) k)) + wBox * (∑ k : Fin 10, sqd p q (Fin.natAdd 20 k)) + iou p q

/-- The whole loss: the sum of the per-cell loss over the 1024 × 1024 cells of the prediction `P` and the target `Q`. -/
def total (P Q : (⟨3, ![1024, 1024, 30]⟩ : Shape).Idx → EReal) : EReal :=
  ∑ a : Fin 1024, ∑ b : Fin 1024, cell (fun k => P (ValueIdx.ix3 a b k)) (fun k => Q (ValueIdx.ix3 a b k))

/-- Adding twenty terms one after the other onto zero is their sum. -/
theorem chain20 (f : Fin 20 → EReal) :
    0 + f 0 + f 1 + f 2 + f 3 + f 4 + f 5 + f 6 + f 7 + f 8 + f 9 + f 10 + f 11 + f 12 + f 13 + f 14 + f 15 + f 16
      + f 17 + f 18 + f 19 = ∑ k : Fin 20, f k := by
  simp only [Fin.sum_univ_castSucc, Fin.sum_univ_zero]
  rfl

/-- Adding ten terms one after the other onto zero is their sum. -/
theorem chain10 (f : Fin 10 → EReal) :
    0 + f 0 + f 1 + f 2 + f 3 + f 4 + f 5 + f 6 + f 7 + f 8 + f 9 = ∑ k : Fin 10, f k := by
  simp only [Fin.sum_univ_castSucc, Fin.sum_univ_zero]
  rfl

/-- Row `16 s + r` of the array is row `r` of block `s`. -/
abbrev rowOf (s : Fin 64) (r : Fin 16) : Fin 1024 := ⟨16 * s.val + r.val, by have := s.isLt; have := r.isLt; omega⟩

/-- Sixty-four blocks of sixteen rows are the 1024 rows: a sum over the rows, block by block. -/
theorem sum_blocks (g : Fin 1024 → EReal) : ∑ s : Fin 64, ∑ r : Fin 16, g (rowOf s r) = ∑ a : Fin 1024, g a := by
  rw [← Fintype.sum_prod_type' (f := fun s r => g (rowOf s r))]
  refine Fintype.sum_equiv (finProdFinEquiv (m := 64) (n := 16)) _ _ fun x => ?_
  refine congrArg g (Fin.ext ?_)
  show 16 * x.1.val + x.2.val = x.2.val + 16 * x.1.val
  omega

end Cert.Loss

end
-- ==== Proof.BlockSum.lean ====
/-
  The accumulator's update at the exact values. Read at a cell (row r, column c) of a block, the body's per-cell value is
  `Cert.Loss.cell` of the cell's thirty channels of the two blocks: a channel is a one-wide slice re-laid as a
  [16, 1024] vector, which reads the block at (r, c, channel); the class and box terms add the squared differences one
  after the other onto a zero, which is their sum. A row sum is the sum over the 1024 columns, and the update adds the
  sum of the sixteen row sums to what the accumulator held.
-/
import proofs.«129722_j71219147702889_1_alg».proof.Proof.Pieces
import proofs.«129722_j71219147702889_1_alg».proof.Proof.Cell
import Idealize.ShloMosaic.PureOps.Ideal.Laws
import Idealize.ShloMosaic.Lib.ValueIdx

set_option maxRecDepth 16384

noncomputable section

open Idealize.ShloMosaic Idealize.ShloMosaic.TcCoe Idealize.SL.Sem Idealize.ShloMosaic.ValueIdx
open scoped BigOperators

namespace Cert.KernelIdeal.Loss

open Cert.KernelIdeal Cert.KernelIdeal.Gen Cert.Loss

/-- A one-wide slice at channel `k` fits inside the thirty channels. -/
theorem chan_lt {k : ℕ} (h : S16x1024x30.Slices ![0, 0, k] S16x1024x1) : k < 30 := by
  obtain ⟨_, h2⟩ := h
  have h3 : k + 1 ≤ 30 := h2 (2 : Fin 3)
  omega

/-- A channel of a block, taken as a one-wide slice and re-laid as a [16, 1024] vector, reads the block at that channel. -/
theorem chan_apply (x : FVec Ideal S16x1024x30 .f32) (k : ℕ) (h : S16x1024x30.Slices ![0, 0, k] S16x1024x1)
    (hc : S16x1024x1.ShapeCasts S16x1024) (r : Fin 16) (c : Fin 1024) :
    shapeCast S16x1024 (extractStridedSlice S16x1024x1 ![0, 0, k] x h) hc (ix2 r c) = x (ix3 r c ⟨k, chan_lt h⟩) := by
  refine (shapeCast_apply _ hc (ix2 r c) (ix3 r c ⟨0, Nat.one_pos⟩) ?_).trans ?_
  · rw [Shape.rowMajor_val_three, Shape.rowMajor_val_two]
    show (r.val * 1024 + c.val) * 1 + 0 = r.val * 1024 + c.val
    omega
  · exact extractStridedSlice_apply _ x h _ _ (fun a => match a with
      | ⟨0, _⟩ => by show r.val = 0 + r.val; omega
      | ⟨1, _⟩ => by show c.val = 0 + c.val; omega
      | ⟨2, _⟩ => by show k = k + 0; omega)

/-- The class term at a cell: 3/2 times the sum of the squared differences of channels 0..19. -/
theorem cls_apply (x0 x1 : Vec Ideal S16x1024x30 .f32) (r : Fin 16) (c : Fin 1024) :
    k0_pay7 x0 x1 (k0_pay5 x0 x1 (k0_pay3 x0 x1) (k0_pay4 x1)) (k0_pay6 x0 x1) (ix2 r c)
      = wCls * ∑ k : Fin 20, sqd (fun k => x0 (ix3 r c k)) (fun k => x1 (ix3 r c k)) (Fin.castLE (by norm_num) k) := by
  unfold k0_pay7 k0_pay5 k0_pay3 k0_pay4 k0_pay6
  simp only [mulf_apply, addf_apply, subf_apply, broadcast_apply, chan_apply, Scalar.ofBits,
    Ideal.ofBits_def, Ideal.ofBits_zero_f32]
  rw [← chain20]
  rfl

/-- The box term at a cell: 5 times the sum of the squared differences of channels 20..29. -/
theorem box_apply (x0 x1 : Vec Ideal S16x1024x30 .f32) (r : Fin 16) (c : Fin 1024) :
    k0_pay11 x0 x1 (k0_pay8 x0 x1) (k0_pay9 x1) (k0_pay10 x0) (ix2 r c)
      = wBox * ∑ k : Fin 10, sqd (fun k => x0 (ix3 r c k)) (fun k => x1 (ix3 r c k)) (Fin.natAdd 20 k) := by
  unfold k0_pay11 k0_pay8 k0_pay9 k0_pay10
  simp only [mulf_apply, addf_apply, subf_apply, broadcast_apply, chan_apply, Scalar.ofBits,
    Ideal.ofBits_def, Ideal.ofBits_zero_f32]
  rw [← chain10]
  rfl

/-- Row `r`'s sum: the sum over the columns of the per-cell loss of the block's cell (r, c). -/
theorem rowSums_apply (x0 x1 : Vec Ideal S16x1024x30 .f32) (r : Fin 16) :
    rowSums x0 x1 (ix2 r ⟨0, Nat.one_pos⟩)
      = ∑ c : Fin 1024, cell (fun k => x0 (ix3 r c k)) (fun k => x1 (ix3 r c k)) := by
  unfold rowSums
  unfold k0_pay15
  refine (shapeCast_apply _ shapeCasts_S16_S16x1 (ix2 r ⟨0, Nat.one_pos⟩) (ix1 r) ?_).trans ?_
  · rw [Shape.rowMajor_val_one, Shape.rowMajor_val_two]
    show r.val = r.val * 1 + 0
    omega
  refine (Ideal.multiReduction_add_single _ 0x00000000#32 reduces_S16x1024_S16 (.inl rfl) rfl (ix1 r)).trans ?_
  refine Finset.sum_congr rfl fun (c : Fin 1024) _ => ?_
  have hl : reduces_S16x1024_S16.lift (ix1 r) c = ix2 r c := by
    funext a; match a with | ⟨0, _⟩ => rfl | ⟨1, _⟩ => rfl
  rw [hl]
  refine (addf_apply _ _ _).trans ?_
  refine congrArg₂ (· + ·) ((addf_apply _ _ _).trans (congrArg₂ (· + ·) (cls_apply x0 x1 r c) (box_apply x0 x1 r c))) ?_
  -- the quotient: the overlap over the union, from channels 20..23 of the two blocks at (r, c)
  unfold k0_pay12 k0_pay13 k0_pay14
  simp only [mulf_apply, addf_apply, subf_apply, divf_apply, maximumf_apply, minimumf_apply,
    broadcast_apply, chan_apply, Scalar.ofBits, Ideal.ofBits_def]
  rfl

/-- The accumulator's one index. -/
theorem idx11 (j : S1x1.Idx) : j = ix2 ⟨0, Nat.one_pos⟩ ⟨0, Nat.one_pos⟩ := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

/-- The update adds the sum of the sixteen row sums to what the accumulator held. -/
theorem update_apply (rows : FVec Ideal S16x1 .f32) (acc : Vec Ideal S1x1 .f32) (j : S1x1.Idx) :
    update rows acc j = acc j + ∑ r : Fin 16, rows (ix2 r ⟨0, Nat.one_pos⟩) := by
  obtain rfl := idx11 j
  unfold update k0_pay1
  rw [shapeCast_self]
  refine (addf_apply _ _ _).trans (congrArg (acc _ + ·) ?_)
  refine (shapeCast_apply _ shapeCasts_S1_S1x1 _ (ix1 ⟨0, Nat.one_pos⟩) ?_).trans ?_
  · rw [Shape.rowMajor_val_one, Shape.rowMajor_val_two]
    rfl
  refine (Ideal.multiReduction_add_single _ 0x00000000#32 reduces_S16x1_S1 (.inl rfl) rfl (ix1 ⟨0, Nat.one_pos⟩)).trans ?_
  refine Finset.sum_congr rfl fun r _ => congrArg rows ?_
  funext a; match a with | ⟨0, _⟩ => rfl | ⟨1, _⟩ => rfl

/-- The sum of a block's per-cell losses. -/
def blockSum (x0 x1 : Vec Ideal S16x1024x30 .f32) : EReal :=
  ∑ r : Fin 16, ∑ c : Fin 1024, cell (fun k => x0 (ix3 r c k)) (fun k => x1 (ix3 r c k))

/-- One point's update, in full: the accumulator plus the block's sum. -/
theorem update_rowSums (x0 x1 : Vec Ideal S16x1024x30 .f32) (acc : Vec Ideal S1x1 .f32) (j : S1x1.Idx) :
    update (rowSums x0 x1) acc j = acc j + blockSum x0 x1 := by
  rw [update_apply]
  exact congrArg (acc j + ·) (Finset.sum_congr rfl fun r _ => rowSums_apply x0 x1 r)

/-- The zero the first point stores into the accumulator. -/
theorem reset_apply (j : S1x1.Idx) : (k0_pay2 (F := Ideal)) j = 0 := by
  unfold k0_pay2
  rw [shapeCast_self]
  exact Ideal.ofBits_zero_f32

end Cert.KernelIdeal.Loss

end
-- ==== Proof.Fold.lean ====
/-
  The accumulator across the grid. After point n it holds the sum of the block sums of points 0..n: the first point
  stores zero and adds its block's sum, every later point adds its own to what the point before left. At the last point
  the output's buffer receives the same value. By induction on the point, never by listing the sixty-four.
-/
import proofs.«129722_j71219147702889_1_alg».proof.Proof.BlockSum
import Mathlib.Algebra.BigOperators.Fin

set_option maxRecDepth 16384

noncomputable section

open Idealize.ShloMosaic Idealize.ShloMosaic.TcCoe Idealize.SL.Sem Idealize.ShloMosaic.ValueIdx
open scoped BigOperators

namespace Cert.KernelIdeal.Loss

open Cert.KernelIdeal Cert.KernelIdeal.Gen Cert.Loss

variable (m : (ℓ : Loc nD τ sig) → Buf (Elt Ideal) ℓ)

/-- Block `t` of the prediction and of the target, as the two input windows read them off their arrays. -/
abbrev predBlk (c : Dev nD) (t : Fin cfg0.N) : Vec Ideal S16x1024x30 .f32 := iblk m c 0 t
abbrev targBlk (c : Dev nD) (t : Fin cfg0.N) : Vec Ideal S16x1024x30 .f32 := iblk m c 1 t

/-- The sum of the block sums of points 0..n. -/
def upTo (c : Dev nD) (n : ℕ) (h : n < cfg0.N) : EReal :=
  ∑ s : Fin (n + 1), blockSum (predBlk m c ⟨s.val, Nat.lt_of_lt_of_le s.isLt h⟩) (targBlk m c ⟨s.val, Nat.lt_of_lt_of_le s.isLt h⟩)

theorem upTo_zero (c : Dev nD) (h : 0 < cfg0.N) :
    upTo m c 0 h = blockSum (predBlk m c ⟨0, h⟩) (targBlk m c ⟨0, h⟩) := by
  unfold upTo
  rw [Fin.sum_univ_castSucc, Fin.sum_univ_zero, zero_add]
  rfl

theorem upTo_succ (c : Dev nD) (n : ℕ) (h : n + 1 < cfg0.N) :
    upTo m c (n + 1) h
      = upTo m c n (Nat.lt_of_succ_lt h) + blockSum (predBlk m c ⟨n + 1, h⟩) (targBlk m c ⟨n + 1, h⟩) := by
  unfold upTo
  rw [Fin.sum_univ_castSucc]
  rfl

/-- The first point: zero plus its block's sum. -/
theorem first_step (c : Dev nD) (t : Fin cfg0.N) (h0 : t.val % 64 = 0) (h1 : ¬t.val % 64 = 63) (j : S1x1.Idx) :
    (outsAt0 m c t.val t.isLt).2 j = blockSum (predBlk m c t) (targBlk m c t) := by
  rw [outsAt0_A m c t h0 h1]
  dsimp only
  refine (congrFun (acc_A c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (predBlk m c t) (targBlk m c t)) j).trans ?_
  rw [update_rowSums, reset_apply, zero_add]

/-- A middle point: what the point before left plus its block's sum. -/
theorem middle_step (c : Dev nD) (t : Fin cfg0.N) (h0 : ¬t.val % 64 = 0) (h1 : ¬t.val % 64 = 63) (j : S1x1.Idx) :
    (outsAt0 m c t.val t.isLt).2 j
      = (outsAt0 m c (t.val - 1) (Nat.lt_of_le_of_lt (Nat.sub_le _ _) t.isLt)).2 j + blockSum (predBlk m c t) (targBlk m c t) := by
  rw [outsAt0_B m c t h0 h1]
  dsimp only
  refine (congrFun (acc_B c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (predBlk m c t) (targBlk m c t)
    (outsAt0 m c (t.val - 1) (Nat.lt_of_le_of_lt (Nat.sub_le _ _) t.isLt)).2) j).trans ?_
  rw [update_rowSums]

/-- The last point: the same for the accumulator, -/
theorem last_step (c : Dev nD) (t : Fin cfg0.N) (h0 : ¬t.val % 64 = 0) (h1 : t.val % 64 = 63) (j : S1x1.Idx) :
    (outsAt0 m c t.val t.isLt).2 j
      = (outsAt0 m c (t.val - 1) (Nat.lt_of_le_of_lt (Nat.sub_le _ _) t.isLt)).2 j + blockSum (predBlk m c t) (targBlk m c t) := by
  rw [outsAt0_C m c t h0 h1]
  dsimp only
  refine (congrFun (acc_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (predBlk m c t) (targBlk m c t)
    (outsAt0 m c (t.val - 1) (Nat.lt_of_le_of_lt (Nat.sub_le _ _) t.isLt)).2) j).trans ?_
  rw [update_rowSums]

/-- and the output's buffer holds what the accumulator holds. -/
theorem last_out (c : Dev nD) (t : Fin cfg0.N) (h0 : ¬t.val % 64 = 0) (h1 : t.val % 64 = 63) :
    (outsAt0 m c t.val t.isLt).1 = (outsAt0 m c t.val t.isLt).2 := by
  rw [outsAt0_C m c t h0 h1]
  dsimp only
  exact (out_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (predBlk m c t) (targBlk m c t)
    (outsAt0 m c (t.val - 1) (Nat.lt_of_le_of_lt (Nat.sub_le _ _) t.isLt)).2).trans
    (acc_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (predBlk m c t) (targBlk m c t)
    (outsAt0 m c (t.val - 1) (Nat.lt_of_le_of_lt (Nat.sub_le _ _) t.isLt)).2).symm

/-- After point n the accumulator holds the sum of the block sums of points 0..n. -/
theorem acc_eq (c : Dev nD) : ∀ (n : ℕ) (h : n < cfg0.N) (j : S1x1.Idx), (outsAt0 m c n h).2 j = upTo m c n h
  | 0, h, j => by
    rw [upTo_zero]
    exact first_step m c ⟨0, h⟩ rfl (by show ¬(0 : ℕ) % 64 = 63; decide) j
  | n + 1, h, j => by
    have hN : cfg0.N = 64 := N_0
    have h0 : ¬(⟨n + 1, h⟩ : Fin cfg0.N).val % 64 = 0 := by dsimp only; omega
    rw [upTo_succ, ← acc_eq c n (Nat.lt_of_succ_lt h) j]
    by_cases h1 : (⟨n + 1, h⟩ : Fin cfg0.N).val % 64 = 63
    · exact last_step m c ⟨n + 1, h⟩ h0 h1 j
    · exact middle_step m c ⟨n + 1, h⟩ h0 h1 j

end Cert.KernelIdeal.Loss

end
-- ==== Proof.Result.lean ====
/-
  The kernel's result. The output window has one block, the whole one-element array, and is written back once, after the
  last point; there its buffer holds the accumulator, the sum of all sixty-four block sums. The host then re-lays that
  one-element array as a scalar. A block's cell (r, c) at point s is the arrays' cell (16 s + r, c), so the sixty-four
  block sums are the sum of the per-cell loss over all cells, block by block.
-/
import proofs.«129722_j71219147702889_1_alg».proof.Proof.Fold
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Loss

open Cert.KernelIdeal Cert.KernelIdeal.Gen Cert.Loss

variable (m : (ℓ : Loc nD τ sig) → Buf (Elt Ideal) ℓ) (ρ : Dev nD → PrngReg)

theorem lastLt : 63 < cfg0.N := by rw [show cfg0.N = 64 from N_0]; decide

/-- The sum of all sixty-four block sums. -/
abbrev allBlocks (c : Dev nD) : EReal := upTo m c 63 lastLt

/-- The one-element output array holding it. -/
abbrev outArr (c : Dev nD) : Buf (Elt Ideal) ((c : Thread nD τ).loc main_v0) := fun _ => allBlocks m c

/-- The one write-back, after the last point, writes the accumulator's final value. -/
theorem flushed_eq (c : Dev nD) (t : Fin cfg0.N) (hf : (cfg0.win 2).flush t = true) :
    (dats m 0 c).flushed 2 t = ((cfg0.win 2).blk t).view.read (Elt Ideal) (outArr m c) := by
  have hN : cfg0.N = 64 := N_0
  have h63 : t.val % 64 = 63 := (flush0_2 t).mp hf
  have h0 : ¬t.val % 64 = 0 := by omega
  funext y
  rw [View.read_apply]
  show ((dats m 0 c).after 2 t) _ = allBlocks m c
  rw [after0_2, last_out m c t h0 h63, acc_eq]
  obtain ⟨n, hn⟩ := t
  have e : n = 63 := by dsimp only at h63; omega
  subst e
  rfl

/-- So the output array ends holding it: the last point's block is the whole array. -/
theorem final_out (c : Dev nD) : (dats m 0 c).arrAt 2 cfg0.N = outArr m c :=
  (dats m 0 c).arrAt_eq_of_cover 2 (outArr m c) (flushed_eq m c) fun i =>
    ⟨⟨63, lastLt⟩, (flush0_2 ⟨63, lastLt⟩).mpr rfl, by
      show i ∈ ((View.whole main_v0).slice (win0_2.rect ⟨63, lastLt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨63, lastLt⟩ 0 * win0_2.size 0 ≤ (i 0 : Nat)
          ∧ (i 0 : Nat) < win0_2.index ⟨63, lastLt⟩ 0 * win0_2.size 0 + win0_2.xsize (grid0.coords ⟨63, lastLt⟩) 0
        rw [show win0_2.index ⟨63, lastLt⟩ 0 * win0_2.size 0 = 0 from by decide +kernel,
          show win0_2.xsize (grid0.coords ⟨63, lastLt⟩) 0 = 1 from by decide +kernel]
        omega
      | ⟨1, _⟩ =>
        show win0_2.index ⟨63, lastLt⟩ 1 * win0_2.size 1 ≤ (i 1 : Nat)
          ∧ (i 1 : Nat) < win0_2.index ⟨63, lastLt⟩ 1 * win0_2.size 1 + win0_2.xsize (grid0.coords ⟨63, lastLt⟩) 1
        rw [show win0_2.index ⟨63, lastLt⟩ 1 * win0_2.size 1 = 0 from by decide +kernel,
          show win0_2.xsize (grid0.coords ⟨63, lastLt⟩) 1 = 1 from by decide +kernel]
        omega⟩

/-- The host's re-laying of the one-element array as a scalar keeps the value. -/
theorem tail_eq (c : Dev nD) :
    Pipeline.afterTail₀ cfgs (dats m) 0 (V0 m) [hostOps1] c main_v1 = fun _ => allBlocks m c := by
  unfold Pipeline.afterTail₀
  show StableHlo.after hostOps1 _ (Proc.devRef .tc main_v1) = _
  after_results
  funext i
  have e : Pipeline.withArrays (cfgs 0).spec c (V0 m c) (fun w => (dats m 0 c).arrAt w (cfgs 0).N) (Proc.devRef .tc main_v0)
      = outArr m c :=
    (Pipeline.withArrays_arr spec0 launch0.win.arr_inj c (V0 m c) _ 2).trans (final_out m c)
  show shapeCast S_ (Pipeline.withArrays (cfgs 0).spec c (V0 m c) (fun w => (dats m 0 c).arrAt w (cfgs 0).N)
    (Proc.devRef .tc main_v0)) shapeCasts_S1x1_S_ i = allBlocks m c
  rw [e]
  rfl

/-! ## The blocks are the arrays' row blocks -/

/-- Where the two input windows' blocks sit: block `t` starts at row `16 t`, column 0, channel 0. -/
theorem idx_pred : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx_targ : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Row `16 t + r` of the arrays. -/
abbrev rowAt (t : Fin cfg0.N) (r : Fin 16) : Fin 1024 :=
  ⟨16 * t.val + r.val, by have := t.isLt; have hN : cfg0.N = 64 := N_0; have := r.isLt; omega⟩

/-- The prediction block's cell (r, b) at point `t` is the prediction's cell (16 t + r, b). -/
theorem predBlk_apply (c : Dev nD) (t : Fin cfg0.N) (r : Fin 16) (b : Fin 1024) (k : Fin 30) :
    predBlk m c t (ix3 r b k) = V m c main_arg0 (ix3 (rowAt t r) b k) := by
  obtain ⟨e0, e1, e2⟩ := idx_pred t
  show iblk m c 0 t (ix3 r b k) = _
  unfold iblk
  rw [View.read_apply]
  show V m c main_arg0 _ = V m c main_arg0 _
  congr 1
  funext a
  apply Fin.ext
  match a with
  | ⟨0, _⟩ => show win0_0.index t 0 * 16 + 1 * r.val = 16 * t.val + r.val; rw [e0]; omega
  | ⟨1, _⟩ => show win0_0.index t 1 * 1024 + 1 * b.val = b.val; rw [e1]; omega
  | ⟨2, _⟩ => show win0_0.index t 2 * 30 + 1 * k.val = k.val; rw [e2]; omega

/-- The target block's cell (r, b) at point `t` is the target's cell (16 t + r, b). -/
theorem targBlk_apply (c : Dev nD) (t : Fin cfg0.N) (r : Fin 16) (b : Fin 1024) (k : Fin 30) :
    targBlk m c t (ix3 r b k) = V m c main_arg1 (ix3 (rowAt t r) b k) := by
  obtain ⟨e0, e1, e2⟩ := idx_targ t
  show iblk m c 1 t (ix3 r b k) = _
  unfold iblk
  rw [View.read_apply]
  show V m c main_arg1 _ = V m c main_arg1 _
  congr 1
  funext a
  apply Fin.ext
  match a with
  | ⟨0, _⟩ => show win0_1.index t 0 * 16 + 1 * r.val = 16 * t.val + r.val; rw [e0]; omega
  | ⟨1, _⟩ => show win0_1.index t 1 * 1024 + 1 * b.val = b.val; rw [e1]; omega
  | ⟨2, _⟩ => show win0_1.index t 2 * 30 + 1 * k.val = k.val; rw [e2]; omega

/-- The sum of all block sums is the sum of the per-cell loss over all cells of the two arrays. -/
theorem allBlocks_eq (c : Dev nD) : allBlocks m c = total (V m c main_arg0) (V m c main_arg1) := by
  have hN : cfg0.N = 64 := N_0
  unfold total
  rw [← sum_blocks (fun a => ∑ b : Fin 1024,
    cell (fun k => V m c main_arg0 (ix3 a b k)) (fun k => V m c main_arg1 (ix3 a b k)))]
  show ∑ s : Fin 64, blockSum (predBlk m c ⟨s.val, _⟩) (targBlk m c ⟨s.val, _⟩) = _
  refine Finset.sum_congr rfl fun s _ => ?_
  unfold blockSum
  refine Finset.sum_congr rfl fun r _ => Finset.sum_congr rfl fun b _ => ?_
  refine congrArg₂ cell (funext fun k => ?_) (funext fun k => ?_)
  · exact predBlk_apply m c ⟨s.val, _⟩ r b k
  · exact targBlk_apply m c ⟨s.val, _⟩ r b k

/-! ## The kernel's run, read -/

/-- Every weakly fair execution ends with the result at the sum of the per-cell loss over all cells of the arguments, the
    arguments unchanged. -/
theorem run : θ_run defs (onTc (τ := τ) (main (F := Ideal))) ⟨m, fun _ => 0, ρ⟩ fun r => ∀ c : Dev nD,
      r.2.mem ((c.tc : Thread nD τ).loc main_v1)
        = (fun _ => total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (by decide))).trans
        ((tail_eq m c).trans (funext fun _ => (allBlocks_eq m c).trans
          (by rw [V_main_arg0, V_main_arg1]))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Loss

end
-- ==== Proof.RefValue.lean ====
/-
  The reference at the exact values: at a cell (a, b) its per-cell array holds `Cert.Loss.cell` of the cell's thirty
  channels of the two arguments, and its result is zero plus the sum of that over all cells. Its operations are read one
  at a time at an index; a slice of channels followed by a sum over them reads the argument at (a, b, channel), and a
  one-wide slice re-laid as a [1024, 1024] array reads it at (a, b, that channel).
-/
import proofs.«129722_j71219147702889_1_alg».proof.Proof.Gen.ReferenceIdeal.Read
import proofs.«129722_j71219147702889_1_alg».proof.Proof.Cell
import Idealize.ShloMosaic.Lib.ValueIdx

set_option maxRecDepth 16384

noncomputable section

open Idealize.ShloMosaic Idealize.ShloMosaic.TcCoe Idealize.SL.Sem Idealize.ShloMosaic.ValueIdx
open scoped BigOperators

namespace Cert.ReferenceIdeal.Loss

open Cert.ReferenceIdeal Cert.ReferenceIdeal.Gen Cert.ReferenceIdeal.Read Cert.Loss

variable (a b : Fin 1024)

/-! The composed index functions of the generated reading, at the cell (a, b). -/

theorem idx_cls_q (k : Fin 20) : idx_main_v0 (idx_main_v4 (ix2 a b) k) = ix3 a b (Fin.castLE (by norm_num) k) := by
  funext d; match d with | ⟨0, _⟩ => rfl | ⟨1, _⟩ => rfl | ⟨2, _⟩ => rfl
theorem idx_cls_p (k : Fin 20) : idx_main_v1 (idx_main_v4 (ix2 a b) k) = ix3 a b (Fin.castLE (by norm_num) k) := by
  funext d; match d with | ⟨0, _⟩ => rfl | ⟨1, _⟩ => rfl | ⟨2, _⟩ => rfl
theorem idx_box_q (k : Fin 10) : idx_main_v7 (idx_main_v11 (ix2 a b) k) = ix3 a b (Fin.natAdd 20 k) := by
  funext d; match d with | ⟨0, _⟩ => rfl | ⟨1, _⟩ => rfl | ⟨2, _⟩ => rfl
theorem idx_box_p (k : Fin 10) : idx_main_v8 (idx_main_v11 (ix2 a b) k) = ix3 a b (Fin.natAdd 20 k) := by
  funext d; match d with | ⟨0, _⟩ => rfl | ⟨1, _⟩ => rfl | ⟨2, _⟩ => rfl

/-- The row and the column of (a, b)'s row-major position. -/
theorem pos_div : (a.val * 1024 + b.val) / 1024 = a.val := by have := b.isLt; omega
theorem pos_mod : (a.val * 1024 + b.val) / 1 % 1024 = b.val := by have := b.isLt; omega

theorem idx_p20 : idx_main_v15 (idx_main_v16 (ix2 a b)) = ix3 a b (ch 20) := by
  funext d; apply Fin.ext
  match d with | ⟨0, _⟩ => exact pos_div a b | ⟨1, _⟩ => exact pos_mod a b | ⟨2, _⟩ => rfl
theorem idx_p21 : idx_main_v17 (idx_main_v18 (ix2 a b)) = ix3 a b (ch 21) := by
  funext d; apply Fin.ext
  match d with | ⟨0, _⟩ => exact pos_div a b | ⟨1, _⟩ => exact pos_mod a b | ⟨2, _⟩ => rfl
theorem idx_p22 : idx_main_v19 (idx_main_v20 (ix2 a b)) = ix3 a b (ch 22) := by
  funext d; apply Fin.ext
  match d with | ⟨0, _⟩ => exact pos_div a b | ⟨1, _⟩ => exact pos_mod a b | ⟨2, _⟩ => rfl
theorem idx_p23 : idx_main_v21 (idx_main_v22 (ix2 a b)) = ix3 a b (ch 23) := by
  funext d; apply Fin.ext
  match d with | ⟨0, _⟩ => exact pos_div a b | ⟨1, _⟩ => exact pos_mod a b | ⟨2, _⟩ => rfl
theorem idx_q20 : idx_main_v36 (idx_main_v37 (ix2 a b)) = ix3 a b (ch 20) := by
  funext d; apply Fin.ext
  match d with | ⟨0, _⟩ => exact pos_div a b | ⟨1, _⟩ => exact pos_mod a b | ⟨2, _⟩ => rfl
theorem idx_q21 : idx_main_v38 (idx_main_v39 (ix2 a b)) = ix3 a b (ch 21) := by
  funext d; apply Fin.ext
  match d with | ⟨0, _⟩ => exact pos_div a b | ⟨1, _⟩ => exact pos_mod a b | ⟨2, _⟩ => rfl
theorem idx_q22 : idx_main_v40 (idx_main_v41 (ix2 a b)) = ix3 a b (ch 22) := by
  funext d; apply Fin.ext
  match d with | ⟨0, _⟩ => exact pos_div a b | ⟨1, _⟩ => exact pos_mod a b | ⟨2, _⟩ => rfl
theorem idx_q23 : idx_main_v42 (idx_main_v43 (ix2 a b)) = ix3 a b (ch 23) := by
  funext d; apply Fin.ext
  match d with | ⟨0, _⟩ => exact pos_div a b | ⟨1, _⟩ => exact pos_mod a b | ⟨2, _⟩ => rfl

/-- The reference's per-cell array at (a, b) is the per-cell loss of that cell's channels. -/
theorem percell_apply (X0 X1 : (⟨S1024x1024x30, .f32⟩ : BufTy).Contents (Elt Ideal)) :
    val_main_v67 (F := Ideal) X0 X1 (ix2 a b) = cell (fun k => X0 (ix3 a b k)) (fun k => X1 (ix3 a b k)) := by
  simp only [val_main_v0_apply, val_main_v1_apply, val_main_v2_apply, val_main_v3_apply, val_main_cst_apply, val_main_v4_apply, val_main_cst_0_apply, val_main_v5_apply, val_main_v6_apply, val_main_v7_apply, val_main_v8_apply, val_main_v9_apply, val_main_v10_apply, val_main_cst_1_apply, val_main_v11_apply, val_main_cst_2_apply, val_main_v12_apply, val_main_v13_apply, val_main_v14_apply, val_main_v15_apply, val_main_v16_apply, val_main_v17_apply, val_main_v18_apply, val_main_v19_apply, val_main_v20_apply, val_main_v21_apply, val_main_v22_apply, val_main_cst_3_apply, val_main_v23_apply, val_main_v24_apply, val_main_v25_apply, val_main_cst_4_apply, val_main_v26_apply, val_main_v27_apply, val_main_v28_apply, val_main_cst_5_apply, val_main_v29_apply, val_main_v30_apply, val_main_v31_apply, val_main_cst_6_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_cst_7_apply, val_main_v44_apply, val_main_v45_apply, val_main_v46_apply, val_main_cst_8_apply, val_main_v47_apply, val_main_v48_apply, val_main_v49_apply, val_main_cst_9_apply, val_main_v50_apply, val_main_v51_apply, val_main_v52_apply, val_main_cst_10_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_cst_11_apply]
  simp only [idx_cls_q, idx_cls_p, idx_box_q, idx_box_p, idx_p20, idx_p21, idx_p22, idx_p23, idx_q20, idx_q21, idx_q22,
    idx_q23, Ideal.ofBits_def, Ideal.addf_def, Ideal.subf_def, Ideal.mulf_def, Ideal.maximumf_def, Ideal.minimumf_def,
    Ideal.hostDivf_def, Ideal.ofBits_zero_f32, zero_add]
  rfl

/-- The reference's result: the sum of the per-cell loss over all cells. -/
theorem result_apply (X0 X1 : (⟨S1024x1024x30, .f32⟩ : BufTy).Contents (Elt Ideal)) (i : S_.Idx) :
    val_main_v68 (F := Ideal) X0 X1 i = total X0 X1 := by
  rw [val_main_v68_apply, val_main_cst_11_apply, Ideal.ofBits_def, Ideal.ofBits_zero_f32, zero_add, sum_idx2]
  exact Finset.sum_congr rfl fun a _ => Finset.sum_congr rfl fun b _ => percell_apply a b X0 X1

end Cert.ReferenceIdeal.Loss

end
-- ==== Proof.lean ====
/-
  A detection loss over a 1024 × 1024 grid of cells with thirty channels each: per cell, 3/2 times the squared
  differences of the twenty class channels, plus 5 times those of the ten box channels, plus the overlap-over-union
  quotient of the predicted and the target box; the result is the sum over all cells.

  The kernel walks the leading axis in sixty-four blocks of sixteen rows. At each block it computes the per-cell value,
  sums a row's 1024 cells, sums the sixteen row sums and adds that to an accumulator it zeroes at the first block; after
  the last block the accumulator is the result. The reference computes the per-cell array at once and sums it. Cell by
  cell the two perform the same operations on the same words (`Cert.Loss.cell`), the kernel adding the squared
  differences one by one onto a zero where the reference sums them. So at the exact values both results are
  `Cert.Loss.total`, the sum of the per-cell loss over all cells: for the kernel because sixty-four blocks of sixteen
  rows are the 1024 rows, for the reference directly. Only commutativity and associativity of the extended reals'
  addition are used, so the inputs' finiteness is never opened.

  The three frames: the kernel's two are its generated frame; the reference's is its generated run with the result
  dropped. The idealization rewrote nothing, so its conjunct is trivial.
-/
import proofs.«129722_j71219147702889_1_alg».proof.Defs
import proofs.«129722_j71219147702889_1_alg».proof.Proof.Gen.Kernel
import proofs.«129722_j71219147702889_1_alg».proof.Proof.Gen.Kernel.Skeleton
import proofs.«129722_j71219147702889_1_alg».proof.Proof.Gen.Kernel.Launch
import proofs.«129722_j71219147702889_1_alg».proof.Proof.Gen.Kernel.Points
import proofs.«129722_j71219147702889_1_alg».proof.Proof.Gen.Kernel.Frame
import proofs.«129722_j71219147702889_1_alg».proof.Proof.Gen.KernelIdeal
import proofs.«129722_j71219147702889_1_alg».proof.Proof.Gen.KernelIdeal.Skeleton
import proofs.«129722_j71219147702889_1_alg».proof.Proof.Gen.KernelIdeal.Launch
import proofs.«129722_j71219147702889_1_alg».proof.Proof.Gen.KernelIdeal.Points
import proofs.«129722_j71219147702889_1_alg».proof.Proof.Gen.KernelIdeal.Frame
import proofs.«129722_j71219147702889_1_alg».proof.Proof.Gen.ReferenceIdeal
import proofs.«129722_j71219147702889_1_alg».proof.Proof.Gen.Pre_finite_inputs
import proofs.«129722_j71219147702889_1_alg».proof.Proof.Gen.ReferenceIdeal.Run
import proofs.«129722_j71219147702889_1_alg».proof.Proof.Gen.ReferenceIdeal.Read
import proofs.«129722_j71219147702889_1_alg».proof.Proof.Result
import proofs.«129722_j71219147702889_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the sum of the per-cell loss over all cells of arguments that agree. -/
theorem algebraic : Cert.algebraic_KernelIdeal_ReferenceIdeal := by
  intro m ρ m' ρ' _ hagree
  refine ⟨fun c _ => Cert.Loss.total (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq]
  funext i
  rw [Cert.ReferenceIdeal.Loss.result_apply, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
